-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S50000x128 .f32) (main_arg1 : FVec F S128x64 .f32) (main_arg2 : FVec F S64x64 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩

abbrev nBuf : Space → Nat
  | .hbm => 70
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S_, .f32⟩
  | .hbm, ⟨17, _⟩ => ⟨S50000x1, .f32⟩
  | .hbm, ⟨18, _⟩ => ⟨S50000x1, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x1, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S_, .f32⟩
  | .hbm, ⟨17, _⟩ => ⟨S50000x1, .f32⟩
  | .hbm, ⟨18, _⟩ => ⟨S50000x1, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x1, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S_, .f32⟩
  | .hbm, ⟨76, _⟩ => ⟨S50000x64, .f32⟩
  | .hbm, ⟨77, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call3_cst : Ref sig .tc := ⟨.hbm, 75, rfl⟩
abbrev main_call3_v0 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Shared.lean ====
/-
  The functions both programs share, each written once over any float family.

  Both programs compute a two-layer graph convolution. With E edges (src, dst) over N nodes:
    * `norm dst`      : the column (max 1 (in-degree))^(-1/2), the in-degree a scatter-add of ones along `dst`;
    * `agg h nrm src dst` : the rows of `h` gathered along `src` (a negative index wrapped by N), each scaled by
                          the gathered `nrm`, and summed into the rows `dst` names (a scatter-add into zeros);
    * `relu x`        : max x 0, entry by entry;
    * `dot1`, `dot2`  : the two dense products, [N,128]·[128,64] and [N,64]·[64,64].
  The reference is `relu (agg (dot2 (relu (relu (agg (dot1 X W1) …))) W2) …)`; the kernel computes the same with one
  `relu` between the layers. Over the extended reals `max (max a 0) 0 = max a 0`, so the two agree.
-/
import proofs.«107484_j18202071400723_1_alg».proof.Proof.Gen.ReferenceIdeal
import Idealize.ShloMosaic.PureOps.Ideal
import Idealize.ShloMosaic.Lib.ValueIdx

noncomputable section

namespace Cert.Bridge

open Cert.ReferenceIdeal Cert.ReferenceIdeal.Gen Idealize.ShloMosaic

variable {F : FTy → Type} [FloatOps F]

/-- The all-zero [N, 64] array. -/
def zeros64 : (⟨S50000x64, .f32⟩ : BufTy).Contents (Elt F) :=
  broadcastInDim S50000x64 ![] bcast_S_S50000x64 (constant S_ .f32 0x00000000#32)

/-- max x 0, entry by entry. -/
def relu (x : (⟨S50000x64, .f32⟩ : BufTy).Contents (Elt F)) : (⟨S50000x64, .f32⟩ : BufTy).Contents (Elt F) :=
  maximumf x (zeros64 (F := F))

/-- The source indices as a column, a negative one wrapped around by N. -/
def srcIdx (a3 : (⟨S800000, .i32⟩ : BufTy).Contents (Elt F)) : (⟨S800000x1, .i32⟩ : BufTy).Contents (Elt F) :=
  broadcastInDim S800000x1 ![0] bcast_S800000_S800000x1_0 (select (cmpi .slt a3 (broadcastInDim S800000 ![] bcast_S_S800000 (constantI S_ 32 0#32))) (addi a3 (broadcastInDim S800000 ![] bcast_S_S800000 (constantI S_ 32 50000#32))) a3)

/-- (max 1 (in-degree))^(-1/2) as an [N, 1] column: the in-degree is a scatter-add of ones along `dst`. -/
def norm (a4 : (⟨S800000, .i32⟩ : BufTy).Contents (Elt F)) : (⟨S50000x1, .f32⟩ : BufTy).Contents (Elt F) :=
  Host.powf (broadcastInDim S50000x1 ![0] bcast_S50000_S50000x1_0 (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 a4) (broadcastInDim S800000 ![] bcast_S_S800000 (constant S_ .f32 0x3F800000#32))))) (broadcastInDim S50000x1 ![] bcast_S_S50000x1 (constant S_ .f32 0xBF000000#32))

/-- Gather the rows of `h` along `src`, scale each by the gathered `nrm`, sum into the rows `dst` names. -/
def agg (h : (⟨S50000x64, .f32⟩ : BufTy).Contents (Elt F)) (nrm : (⟨S50000x1, .f32⟩ : BufTy).Contents (Elt F))
    (a3 a4 : (⟨S800000, .i32⟩ : BufTy).Contents (Elt F)) : (⟨S50000x64, .f32⟩ : BufTy).Contents (Elt F) :=
  Host.scatterAdd scatter_S50000x64_S800000x1_S800000x64_1_0_0_1 (zeros64 (F := F)) (broadcastInDim S800000x1 ![0] bcast_S800000_S800000x1_0 a4) (mulf (Host.gather gather_S50000x64_S800000x1_S800000x64_1_0_n_n_0_1_164 h (srcIdx (F := F) a3)) (broadcastInDim S800000x64 ![0, 1] bcast_S800000x1_S800000x64_0_1 (Host.gather gather_S50000x1_S800000x1_S800000x1_1_0_n_n_0_1_11 nrm (srcIdx (F := F) a3))))

/-- The first dense product, [N,128]·[128,64]. -/
def dot1 (a0 : (⟨S50000x128, .f32⟩ : BufTy).Contents (Elt F)) (a1 : (⟨S128x64, .f32⟩ : BufTy).Contents (Elt F)) : (⟨S50000x64, .f32⟩ : BufTy).Contents (Elt F) :=
  Host.dotGeneral dot_S50000x128_S128x64_S50000x64_1_0_0_1_n_n none a0 a1

/-- The second dense product, [N,64]·[64,64]. -/
def dot2 (x : (⟨S50000x64, .f32⟩ : BufTy).Contents (Elt F)) (a2 : (⟨S64x64, .f32⟩ : BufTy).Contents (Elt F)) : (⟨S50000x64, .f32⟩ : BufTy).Contents (Elt F) :=
  Host.dotGeneral dot_S50000x64_S64x64_S50000x64_1_0_0_1_n_n none x a2

/-- The reference's result: two rectifications between the layers. -/
def refResult (a0 : (⟨S50000x128, .f32⟩ : BufTy).Contents (Elt F)) (a1 : (⟨S128x64, .f32⟩ : BufTy).Contents (Elt F)) (a2 : (⟨S64x64, .f32⟩ : BufTy).Contents (Elt F))
    (a3 a4 : (⟨S800000, .i32⟩ : BufTy).Contents (Elt F)) : (⟨S50000x64, .f32⟩ : BufTy).Contents (Elt F) :=
  relu (agg (dot2 (relu (relu (agg (dot1 a0 a1) (norm (F := F) a4) a3 a4))) a2) (norm (F := F) a4) a3 a4)

/-- The kernel's result: one rectification between the layers. -/
def kerResult (a0 : (⟨S50000x128, .f32⟩ : BufTy).Contents (Elt F)) (a1 : (⟨S128x64, .f32⟩ : BufTy).Contents (Elt F)) (a2 : (⟨S64x64, .f32⟩ : BufTy).Contents (Elt F))
    (a3 a4 : (⟨S800000, .i32⟩ : BufTy).Contents (Elt F)) : (⟨S50000x64, .f32⟩ : BufTy).Contents (Elt F) :=
  relu (agg (dot2 (relu (agg (dot1 a0 a1) (norm (F := F) a4) a3 a4)) a2) (norm (F := F) a4) a3 a4)

/-- Over the extended reals max (max a 0) 0 = max a 0: rectifying twice is rectifying once. -/
theorem relu_relu (x : (⟨S50000x64, .f32⟩ : BufTy).Contents (Elt Ideal)) : relu (F := Ideal) (relu (F := Ideal) x) = relu (F := Ideal) x := by
  funext i
  show max (max (x i) (zeros64 (F := Ideal) i)) (zeros64 (F := Ideal) i) = max (x i) (zeros64 (F := Ideal) i)
  rw [max_assoc, max_self]

/-- Hence the two results are one function of the arguments. -/
theorem kerResult_eq_refResult (a0 : (⟨S50000x128, .f32⟩ : BufTy).Contents (Elt Ideal)) (a1 : (⟨S128x64, .f32⟩ : BufTy).Contents (Elt Ideal)) (a2 : (⟨S64x64, .f32⟩ : BufTy).Contents (Elt Ideal))
    (a3 a4 : (⟨S800000, .i32⟩ : BufTy).Contents (Elt Ideal)) : kerResult (F := Ideal) a0 a1 a2 a3 a4 = refResult (F := Ideal) a0 a1 a2 a3 a4 := by
  unfold kerResult refResult
  rw [relu_relu]

end Cert.Bridge

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«107484_j18202071400723_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.Region0.lean ====
/-
  Region 0: the first dense product, block by block.
  Point t of the grid loads rows [5000 t, 5000 t + 5000) of X and the whole of W1 and stores their product; entry
  (p, q) of that block is the sum over k of X (5000 t + p, k) · W1 (k, q) — the narrowing of the operands to bf16 is
  the identity over the extended reals — which is entry (5000 t + p, q) of the whole product. The ten blocks tile
  the rows, so the array ends holding the whole product.
-/
import proofs.«107484_j18202071400723_1_alg».proof.Proof.Gen.KernelIdeal.Frame
import proofs.«107484_j18202071400723_1_alg».proof.Proof.Shared
import proofs.«107484_j18202071400723_1_alg».proof.Proof.LibPlainDot
import proofs.«107484_j18202071400723_1_alg».proof.Proof.LibHostRead
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' dimension records: which axis each coordinate comes from -/

theorem blk_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem blk_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem blk_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem whole_l0 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem whole_l1 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem whole_r0 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem whole_r1 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- A block's product at (p, q): the sum over k of x (p, k) · w (k, q). -/
theorem pay_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  exact Cert.Lib.matmul_plain_apply (M := 5000) (K := 128) (N := 64) dot_S5000x128_S128x64_S5000x64_1_0_0_1_n_n rfl rfl blk_l0 blk_l1 blk_r0 blk_r1 none _ _ p q

/-- The whole product at (P, q): the sum over k of X (P, k) · W (k, q). -/
theorem dot1_apply (X : (⟨Cert.ReferenceIdeal.S50000x128, .f32⟩ : BufTy).Contents (Elt Ideal)) (W : (⟨Cert.ReferenceIdeal.S128x64, .f32⟩ : BufTy).Contents (Elt Ideal))
    (P : Fin 50000) (q : Fin 64) :
    Cert.Bridge.dot1 (F := Ideal) X W (ix2 P q) = ∑ k : Fin 128, X (ix2 P k) * W (ix2 k q) := by
  unfold Cert.Bridge.dot1
  exact Cert.LibHostRead.hostDotGeneral_plain_apply (M := 50000) (K := 128) (N := 64) Cert.ReferenceIdeal.dot_S50000x128_S128x64_S50000x64_1_0_0_1_n_n rfl rfl whole_l0 whole_l1 whole_r0 whole_r1 none X W P q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of X and of the output is the point's number, W1 is taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (Cert.Bridge.dot1 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  obtain ⟨e00, e01, e10, e11, e20, e21⟩ := idx_facts t
  have ht : t.val < 10 := lt_of_lt_of_eq t.isLt N_0
  have hP : t.val * 5000 + p.val < 50000 := by have := p.isLt; omega
  show k0_pay1 (F := Ideal) (iblk0 V c 0 t) (iblk0 V c 1 t) (ix2 p q)
    = Cert.Bridge.dot1 (F := Ideal) (V c main_arg0) (V c main_arg1) (((cfg0.win 2).blk t).view.emb (ix2 p q))
  have hemb : ((cfg0.win 2).blk t).view.emb (ix2 p q) = ix2 (⟨t.val * 5000 + p.val, hP⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hemb]
  refine (pay_apply _ _ p q).trans ?_
  refine Eq.trans ?_ (dot1_apply _ _ _ q).symm
  refine Finset.sum_congr rfl fun k _ => ?_
  have hx : iblk0 V c 0 t (ix2 p k) = V c main_arg0 (ix2 (⟨t.val * 5000 + p.val, hP⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : iblk0 V c 1 t (ix2 k q) = V c main_arg1 (ix2 k q) := by
    show V c main_arg1 (((cfg0.win 1).blk t).view.emb (ix2 k q)) = _
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [hx, hw]

/-- An index of the array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v8).slice (win0_2.rect t)).set ↔ _
  rw [View.set_slice_whole, Rect.mem_set_unit]
  exact Iff.rfl

/-- Row r of the array lies in the block of point r / 5000: the ten blocks tile the rows. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 5000 < cfg0.N := by rw [show cfg0.N = 10 from N_0]; omega
  obtain ⟨e00, e01, e10, e11, e20, e21⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 64 ≤ (i 1).val ∧ (i 1).val < win0_2.index ⟨(i 0).val / 5000, hN⟩ (1 : Fin 2) * 64 + 64
    rw [e21]; omega

/-- After the region the output array holds the whole product of the two input arrays as the region found them. -/
theorem final (c : Dev nD) : (dat0 V c).arrAt 2 cfg0.N = Cert.Bridge.dot1 (F := Ideal) (V c main_arg0) (V c main_arg1) :=
  (dat0 V c).arrAt_eq_of_cover 2 _ (fun t _ => flushed_eq V c t) cover

end Cert.KernelIdeal.Region0

end
-- ==== Proof.Region1.lean ====
/-
  Region 1: the rectification between the layers fused into the second dense product, block by block.
  Point t loads rows [5000 t, 5000 t + 5000) of the aggregated array A and the whole of W2 and stores
  max(A, 0) · W2 for those rows; entry (p, q) of the block is the sum over k of max (A (5000 t + p, k)) 0 · W2 (k, q),
  which is entry (5000 t + p, q) of the whole product of the rectified array with W2. The ten blocks tile the rows.
-/
import proofs.«107484_j18202071400723_1_alg».proof.Proof.Gen.KernelIdeal.Frame
import proofs.«107484_j18202071400723_1_alg».proof.Proof.Shared
import proofs.«107484_j18202071400723_1_alg».proof.Proof.LibPlainDot
import proofs.«107484_j18202071400723_1_alg».proof.Proof.LibHostRead
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The two products' dimension records: which axis each coordinate comes from -/

theorem blk_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blk_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem blk_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem blk_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem whole_l0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem whole_l1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem whole_r0 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem whole_r1 (i : Cert.ReferenceIdeal.S50000x64.Idx) (q : Cert.ReferenceIdeal.dot_S50000x64_S64x64_S50000x64_1_0_0_1_n_n.contr.Idx) : (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- The zero the rectification compares with. -/
abbrev zero : Ideal .f32 := Scalar.ofBits .f32 0x00000000#32

/-- A block's rectified product at (p, q): the sum over k of max (x (p, k)) 0 · w (k, q). -/
theorem pay_apply (x : Vec Ideal S5000x64 .f32) (w : Vec Ideal S64x64 .f32) (p : Fin 5000) (q : Fin 64) :
    k1_pay1 (F := Ideal) x w (ix2 p q) = ∑ k : Fin 64, max (x (ix2 p k)) zero * w (ix2 k q) := by
  unfold k1_pay1
  refine (Cert.Lib.matmul_plain_apply (M := 5000) (K := 64) (N := 64) dot_S5000x64_S64x64_S5000x64_1_0_0_1_n_n rfl rfl blk_l0 blk_l1 blk_r0 blk_r1 none _ _ p q).trans ?_
  refine Finset.sum_congr rfl fun k _ => ?_
  show max (shapeCast S5000x64 x shapeCasts_S5000x64_S5000x64 (ix2 p k)) zero * w (ix2 k q) = _
  rw [shapeCast_self]

/-- The whole rectified product at (P, q): the sum over k of max (X (P, k)) 0 · W (k, q). -/
theorem dot2_relu_apply (X : (⟨Cert.ReferenceIdeal.S50000x64, .f32⟩ : BufTy).Contents (Elt Ideal)) (W : (⟨Cert.ReferenceIdeal.S64x64, .f32⟩ : BufTy).Contents (Elt Ideal))
    (P : Fin 50000) (q : Fin 64) :
    Cert.Bridge.dot2 (F := Ideal) (Cert.Bridge.relu (F := Ideal) X) W (ix2 P q) = ∑ k : Fin 64, max (X (ix2 P k)) zero * W (ix2 k q) := by
  unfold Cert.Bridge.dot2
  refine (Cert.LibHostRead.hostDotGeneral_plain_apply (M := 50000) (K := 64) (N := 64) Cert.ReferenceIdeal.dot_S50000x64_S64x64_S50000x64_1_0_0_1_n_n rfl rfl whole_l0 whole_l1 whole_r0 whole_r1 none _ W P q).trans ?_
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of A and of the output is the point's number, W2 is taken whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole rectified product. -/
theorem flushed_eq (c : Dev nD) (t : Fin cfg1.N) :
    (dat1 V c).flushed 2 t = ((cfg1.win 2).blk t).view.read (Elt Ideal) (Cert.Bridge.dot2 (F := Ideal) (Cert.Bridge.relu (F := Ideal) (V c main_v27)) (V c main_arg2)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  obtain ⟨e00, e01, e10, e11, e20, e21⟩ := idx_facts t
  have ht : t.val < 10 := lt_of_lt_of_eq t.isLt N_1
  have hP : t.val * 5000 + p.val < 50000 := by have := p.isLt; omega
  show k1_pay1 (F := Ideal) (iblk1 V c 0 t) (iblk1 V c 1 t) (ix2 p q)
    = Cert.Bridge.dot2 (F := Ideal) (Cert.Bridge.relu (F := Ideal) (V c main_v27)) (V c main_arg2) (((cfg1.win 2).blk t).view.emb (ix2 p q))
  have hemb : ((cfg1.win 2).blk t).view.emb (ix2 p q) = ix2 (⟨t.val * 5000 + p.val, hP⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [hemb]
  refine (pay_apply _ _ p q).trans ?_
  refine Eq.trans ?_ (dot2_relu_apply _ _ _ q).symm
  refine Finset.sum_congr rfl fun k _ => ?_
  have hx : iblk1 V c 0 t (ix2 p k) = V c main_v27 (ix2 (⟨t.val * 5000 + p.val, hP⟩ : Fin 50000) k) := by
    show V c main_v27 (((cfg1.win 0).blk t).view.emb (ix2 p k)) = _
    refine congrArg (V c main_v27) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have hw : iblk1 V c 1 t (ix2 k q) = V c main_arg2 (ix2 k q) := by
    show V c main_arg2 (((cfg1.win 1).blk t).view.emb (ix2 k q)) = _
    refine congrArg (V c main_arg2) ?_
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  rw [hx, hw]

/-- An index of the array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v28).slice (win1_2.rect t)).set ↔ _
  rw [View.set_slice_whole, Rect.mem_set_unit]
  exact Iff.rfl

/-- Row r of the array lies in the block of point r / 5000: the ten blocks tile the rows. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 5000 < cfg1.N := by rw [show cfg1.N = 10 from N_1]; omega
  obtain ⟨e00, e01, e10, e11, e20, e21⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hN⟩ (1 : Fin 2) * 64 ≤ (i 1).val ∧ (i 1).val < win1_2.index ⟨(i 0).val / 5000, hN⟩ (1 : Fin 2) * 64 + 64
    rw [e21]; omega

/-- After the region the output array holds the whole product of the rectified input array with W2. -/
theorem final (c : Dev nD) : (dat1 V c).arrAt 2 cfg1.N = Cert.Bridge.dot2 (F := Ideal) (Cert.Bridge.relu (F := Ideal) (V c main_v27)) (V c main_arg2) :=
  (dat1 V c).arrAt_eq_of_cover 2 _ (fun t _ => flushed_eq V c t) cover

end Cert.KernelIdeal.Region1

end
-- ==== Proof.Region2.lean ====
/-
  Region 2: the final rectification, block by block.
  Point t loads rows [5000 t, 5000 t + 5000) of the aggregated array A and stores max(A, 0) for those rows: entry j
  of the block is max (A (5000 t + j₀, j₁)) 0, the same entry of the whole rectified array. The ten blocks tile the rows.
-/
import proofs.«107484_j18202071400723_1_alg».proof.Proof.Gen.KernelIdeal.Frame
import proofs.«107484_j18202071400723_1_alg».proof.Proof.Shared
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- The zero the rectification compares with. -/
abbrev zero : Ideal .f32 := Scalar.ofBits .f32 0x00000000#32

/-- A block's rectification at an entry: max (x j) 0. -/
theorem pay_apply (x : Vec Ideal S5000x64 .f32) (j : S5000x64.Idx) :
    k2_pay1 (F := Ideal) x j = max (x j) zero := by
  unfold k2_pay1
  show max (shapeCast S5000x64 x shapeCasts_S5000x64_S5000x64 j) zero = _
  rw [shapeCast_self]

/-- The whole rectified array at an entry: max (X i) 0. -/
theorem relu_apply (X : (⟨Cert.ReferenceIdeal.S50000x64, .f32⟩ : BufTy).Contents (Elt Ideal)) (i : Cert.ReferenceIdeal.S50000x64.Idx) :
    Cert.Bridge.relu (F := Ideal) X i = max (X i) zero := rfl

/-- A block entry that reads the array's entry i rectifies to the whole rectified array's entry i. -/
theorem pay_eq_relu (X : (⟨Cert.ReferenceIdeal.S50000x64, .f32⟩ : BufTy).Contents (Elt Ideal)) (x : Vec Ideal S5000x64 .f32)
    (i : Cert.ReferenceIdeal.S50000x64.Idx) (j : S5000x64.Idx) (h : x j = X i) :
    k2_pay1 (F := Ideal) x j = Cert.Bridge.relu (F := Ideal) X i := by
  rw [pay_apply, relu_apply, h]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of A and of the output is the point's number. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the whole rectified array. -/
theorem flushed_eq (c : Dev nD) (t : Fin cfg2.N) :
    (dat2 V c).flushed 1 t = ((cfg2.win 1).blk t).view.read (Elt Ideal) (Cert.Bridge.relu (F := Ideal) (V c main_v47)) := by
  show (cfg2.win 1).cut (grid2.coords t) ((dat2 V c).after 1 t) = _
  rw [after2_1]
  unfold out2_1
  rw [View.canon_unit_zero hz]
  simp only [View.ld_unit_zero (S := S5000x64) hz]
  funext j
  obtain ⟨e00, e01, e10, e11⟩ := idx_facts t
  show k2_pay1 (F := Ideal) (iblk2 V c 0 t) j
    = Cert.Bridge.relu (F := Ideal) (V c main_v47) (((cfg2.win 1).blk t).view.emb j)
  refine pay_eq_relu (V c main_v47) (iblk2 V c 0 t) _ j ?_
  show V c main_v47 (((cfg2.win 0).blk t).view.emb j) = V c main_v47 (((cfg2.win 1).blk t).view.emb j)
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * (j 1).val = win2_1.index t (1 : Fin 2) * 64 + 1 * (j 1).val; omega
  rw [h0]

/-- An index of the array is in point t's block iff each coordinate is in the block's range on its axis. -/
theorem mem_blk (t : Fin cfg2.N) (i : S50000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v48).slice (win2_1.rect t)).set ↔ _
  rw [View.set_slice_whole, Rect.mem_set_unit]
  exact Iff.rfl

/-- Row r of the array lies in the block of point r / 5000: the ten blocks tile the rows. -/
theorem cover (i : S50000x64.Idx) : ∃ t : Fin cfg2.N, (cfg2.win 1).flush t = true ∧ i ∈ ((cfg2.win 1).blk t).view.set := by
  have hi0 : (i 0).val < 50000 := (i 0).isLt
  have hi1 : (i 1).val < 64 := (i 1).isLt
  have hN : (i 0).val / 5000 < cfg2.N := by rw [show cfg2.N = 10 from N_2]; omega
  obtain ⟨e00, e01, e10, e11⟩ := idx_facts ⟨(i 0).val / 5000, hN⟩
  refine ⟨⟨(i 0).val / 5000, hN⟩, flush2_1 _, ?_⟩
  rw [mem_blk]
  intro a
  match a with
  | ⟨0, _⟩ =>
    show win2_1.index ⟨(i 0).val / 5000, hN⟩ (0 : Fin 2) * 5000 ≤ (i 0).val ∧ (i 0).val < win2_1.index ⟨(i 0).val / 5000, hN⟩ (0 : Fin 2) * 5000 + 5000
    rw [e10]; show (i 0).val / 5000 * 5000 ≤ (i 0).val ∧ (i 0).val < (i 0).val / 5000 * 5000 + 5000; omega
  | ⟨1, _⟩ =>
    show win2_1.index ⟨(i 0).val / 5000, hN⟩ (1 : Fin 2) * 64 ≤ (i 1).val ∧ (i 1).val < win2_1.index ⟨(i 0).val / 5000, hN⟩ (1 : Fin 2) * 64 + 64
    rw [e11]; omega

/-- After the region the output array holds the rectification of the input array as the region found it. -/
theorem final (c : Dev nD) : (dat2 V c).arrAt 1 cfg2.N = Cert.Bridge.relu (F := Ideal) (V c main_v47) :=
  (dat2 V c).arrAt_eq_of_cover 1 _ (fun t _ => flushed_eq V c t) cover

end Cert.KernelIdeal.Region2

end
-- ==== Proof.KernelValue.lean ====
/-
  The kernel program's result array as one function of the argument arrays.

  The run's buffer contents at each boundary of @main are a fold from the launch memory: a stretch of host operations
  applies them, a region leaves its arrays at what its blocks wrote back. Walking the result array back through the fold:
  it is the rectification (region 2) of the aggregate the last host stretch computes from the second dense product
  (region 1) of the rectified aggregate the middle stretch computes from the first dense product (region 0) — each stretch
  reading the degree normalisation the first stretches computed and the index arrays as launched.
-/
import proofs.«107484_j18202071400723_1_alg».proof.Proof.Gen.KernelIdeal.Frame
import proofs.«107484_j18202071400723_1_alg».proof.Proof.Shared
import proofs.«107484_j18202071400723_1_alg».proof.Proof.Region0
import proofs.«107484_j18202071400723_1_alg».proof.Proof.Region1
import proofs.«107484_j18202071400723_1_alg».proof.Proof.Region2
import proofs.«107484_j18202071400723_1_alg».proof.Proof.KernelRun
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-! ## The host stretches, at any float family -/

section Host

variable {F : FTy → Type} [FloatOps F]
variable (m : (ℓ : Loc nD τ sig) → Buf (Elt F) ℓ) (ρ : Dev nD → PrngReg) (c : Dev nD)

/-- Entering region 0 the normalisation column is `norm` of the destination indices as launched. -/
theorem W3_v7 : W3 m ρ c (Proc.devRef .tc main_v7) = Cert.Bridge.norm (F := F) (m ((c : Thread nD τ).loc main_arg4)) := by
  show StableHlo.after hostOps0_2 (StableHlo.after hostOps0_1 (StableHlo.after hostOps0 (W0 m ρ c))) (Proc.devRef .tc main_v7) = _
  after_results
  rfl
/-- Entering region 0 argument 0 is as launched: no host operation writes it. -/
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
/-- Entering region 0 argument 1 is as launched: no host operation writes it. -/
theorem W3_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results
/-- Entering region 0 argument 2 is as launched: no host operation writes it. -/
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
/-- Entering region 0 argument 3 is as launched: no host operation writes it. -/
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
/-- Entering region 0 argument 4 is as launched: no host operation writes it. -/
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

/-- The middle stretch aggregates the first product: what it leaves in the aggregate's buffer, from the buffers it reads. -/
theorem W5_v27 : W5 m ρ c (Proc.devRef .tc main_v27)
    = Cert.Bridge.agg (F := F) (W4 m ρ c (Proc.devRef .tc main_v8)) (W4 m ρ c (Proc.devRef .tc main_v7)) (W4 m ρ c (Proc.devRef .tc main_arg3)) (W4 m ρ c (Proc.devRef .tc main_arg4)) := by
  show StableHlo.after hostOps1 (W4 m ρ c) (Proc.devRef .tc main_v27) = _
  after_results_simp
  rfl
/-- The middle stretch does not write `main_v7`. -/
theorem W5_main_v7 : W5 m ρ c (Proc.devRef .tc main_v7) = W4 m ρ c (Proc.devRef .tc main_v7) := by
  show StableHlo.after hostOps1 (W4 m ρ c) (Proc.devRef .tc main_v7) = _
  after_results
/-- The middle stretch does not write `main_arg2`. -/
theorem W5_main_arg2 : W5 m ρ c (Proc.devRef .tc main_arg2) = W4 m ρ c (Proc.devRef .tc main_arg2) := by
  show StableHlo.after hostOps1 (W4 m ρ c) (Proc.devRef .tc main_arg2) = _
  after_results
/-- The middle stretch does not write `main_arg3`. -/
theorem W5_main_arg3 : W5 m ρ c (Proc.devRef .tc main_arg3) = W4 m ρ c (Proc.devRef .tc main_arg3) := by
  show StableHlo.after hostOps1 (W4 m ρ c) (Proc.devRef .tc main_arg3) = _
  after_results
/-- The middle stretch does not write `main_arg4`. -/
theorem W5_main_arg4 : W5 m ρ c (Proc.devRef .tc main_arg4) = W4 m ρ c (Proc.devRef .tc main_arg4) := by
  show StableHlo.after hostOps1 (W4 m ρ c) (Proc.devRef .tc main_arg4) = _
  after_results

/-- The last stretch aggregates the second product: what it leaves in the aggregate's buffer, from the buffers it reads. -/
theorem W7_v47 : W7 m ρ c (Proc.devRef .tc main_v47)
    = Cert.Bridge.agg (F := F) (W6 m ρ c (Proc.devRef .tc main_v28)) (W6 m ρ c (Proc.devRef .tc main_v7)) (W6 m ρ c (Proc.devRef .tc main_arg3)) (W6 m ρ c (Proc.devRef .tc main_arg4)) := by
  show StableHlo.after hostOps2 (W6 m ρ c) (Proc.devRef .tc main_v47) = _
  after_results_simp
  rfl

end Host

/-! ## The walk, over the extended reals -/

section Walk

variable (m : (ℓ : Loc nD τ sig) → Buf (Elt Ideal) ℓ) (ρ : Dev nD → PrngReg) (c : Dev nD)

/-- Region 0 leaves the first dense product of the arguments as launched. -/
theorem W4_v8 : W4 m ρ c (Proc.devRef .tc main_v8) = Cert.Bridge.dot1 (F := Ideal) (m ((c : Thread nD τ).loc main_arg0)) (m ((c : Thread nD τ).loc main_arg1)) := by
  refine (W4_arr m ρ c 2).trans ((Cert.KernelIdeal.Region0.final (V3 m ρ) c).trans ?_)
  show Cert.Bridge.dot1 (F := Ideal) (W3 m ρ c (Proc.devRef .tc main_arg0)) (W3 m ρ c (Proc.devRef .tc main_arg1)) = _
  rw [W3_arg0, W3_arg1]

/-- The first aggregate: the first product gathered, scaled and summed along the edges. -/
theorem W5_v27_eq : W5 m ρ c (Proc.devRef .tc main_v27) = (Cert.Bridge.agg (F := Ideal) (Cert.Bridge.dot1 (F := Ideal) (m ((c : Thread nD τ).loc main_arg0)) (m ((c : Thread nD τ).loc main_arg1))) (Cert.Bridge.norm (F := Ideal) (m ((c : Thread nD τ).loc main_arg4))) (m ((c : Thread nD τ).loc main_arg3)) (m ((c : Thread nD τ).loc main_arg4))) := by
  rw [W5_v27, W4_v8, W4_of_ne m ρ c main_v7 (by decide), W4_of_ne m ρ c main_arg3 (by decide), W4_of_ne m ρ c main_arg4 (by decide),
    W3_v7, W3_arg3, W3_arg4]

/-- Region 1 leaves the second dense product of the rectified first aggregate. -/
theorem W6_v28 : W6 m ρ c (Proc.devRef .tc main_v28)
    = Cert.Bridge.dot2 (F := Ideal) (Cert.Bridge.relu (F := Ideal) (Cert.Bridge.agg (F := Ideal) (Cert.Bridge.dot1 (F := Ideal) (m ((c : Thread nD τ).loc main_arg0)) (m ((c : Thread nD τ).loc main_arg1))) (Cert.Bridge.norm (F := Ideal) (m ((c : Thread nD τ).loc main_arg4))) (m ((c : Thread nD τ).loc main_arg3)) (m ((c : Thread nD τ).loc main_arg4)))) (m ((c : Thread nD τ).loc main_arg2)) := by
  refine (W6_arr m ρ c 2).trans ((Cert.KernelIdeal.Region1.final (V5 m ρ) c).trans ?_)
  show Cert.Bridge.dot2 (F := Ideal) (Cert.Bridge.relu (F := Ideal) (W5 m ρ c (Proc.devRef .tc main_v27))) (W5 m ρ c (Proc.devRef .tc main_arg2)) = _
  rw [W5_v27_eq, W5_main_arg2, W4_of_ne m ρ c main_arg2 (by decide), W3_arg2]

/-- The second aggregate: the second product gathered, scaled and summed along the edges. -/
theorem W7_v47_eq : W7 m ρ c (Proc.devRef .tc main_v47)
    = Cert.Bridge.agg (F := Ideal) (Cert.Bridge.dot2 (F := Ideal) (Cert.Bridge.relu (F := Ideal) (Cert.Bridge.agg (F := Ideal) (Cert.Bridge.dot1 (F := Ideal) (m ((c : Thread nD τ).loc main_arg0)) (m ((c : Thread nD τ).loc main_arg1))) (Cert.Bridge.norm (F := Ideal) (m ((c : Thread nD τ).loc main_arg4))) (m ((c : Thread nD τ).loc main_arg3)) (m ((c : Thread nD τ).loc main_arg4)))) (m ((c : Thread nD τ).loc main_arg2))) (Cert.Bridge.norm (F := Ideal) (m ((c : Thread nD τ).loc main_arg4))) (m ((c : Thread nD τ).loc main_arg3)) (m ((c : Thread nD τ).loc main_arg4)) := by
  rw [W7_v47, W6_v28, W6_of_ne m ρ c main_v7 (by decide), W6_of_ne m ρ c main_arg3 (by decide), W6_of_ne m ρ c main_arg4 (by decide),
    W5_main_v7, W5_main_arg3, W5_main_arg4,
    W4_of_ne m ρ c main_v7 (by decide), W4_of_ne m ρ c main_arg3 (by decide), W4_of_ne m ρ c main_arg4 (by decide),
    W3_v7, W3_arg3, W3_arg4]

/-- Region 2 leaves the rectified second aggregate: the kernel's result as one function of the arguments as launched. -/
theorem W8_v48 : W8 m ρ c (Proc.devRef .tc main_v48) = Cert.Bridge.kerResult (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 1).trans ((Cert.KernelIdeal.Region2.final (V7 m ρ) c).trans ?_)
  show Cert.Bridge.relu (F := Ideal) (W7 m ρ c (Proc.devRef .tc main_v47)) = _
  rw [W7_v47_eq]
  rfl

end Walk

/-- Every weakly fair execution of the kernel program over the extended reals ends with its result array at
    `kerResult` of the arguments as launched, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v48)
        = Cert.Bridge.kerResult (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W8_v48 m ρ c), (h c).2⟩) (Cert.KernelIdeal.Named.run_named m ρ)

end Cert.KernelIdeal.KValue

end
-- ==== Proof.RefStages.lean ====
/-
  The reference program's run, its result named: the composed term of its seventy-three host operations is
  `refResult` of the argument arrays — the degree normalisation, two rounds of gather · scale · scatter-add around the
  two dense products, a rectification after each round and one more between the layers. The equation is the
  unfolding of the shared functions; nothing is computed.
-/
import proofs.«107484_j18202071400723_1_alg».proof.Proof.Gen.ReferenceIdeal.Run
import proofs.«107484_j18202071400723_1_alg».proof.Proof.Shared

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- Every weakly fair execution of the reference ends with its result at `refResult` of the arguments as launched,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Cert.Bridge.refResult (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := F) m ρ)

end Cert.ReferenceIdeal.RefValue

end
-- ==== Proof.lean ====
/-
  Two graph-convolution layers on N = 50000 nodes and E = 800000 edges (src, dst), 128 → 64 → 64 features.

  With nrm = (max 1 (in-degree))^(-1/2) as a column, the in-degree a scatter-add of ones along dst, and
  agg h = the rows of h gathered along src, scaled by the gathered nrm, and scatter-added along dst:

      reference :  relu (agg (relu (relu (agg (X · W1))) · W2))
      kernel    :  relu (agg (      relu (agg (X · W1))  · W2))

  The kernel runs the two dense products and the last rectification as grid kernels over ten blocks of 5000 rows, the
  middle rectification fused into the second product; the gather, scale and scatter-add are the same host operations
  in both programs. Over the extended reals each blocked product is the whole product (the operands' narrowing to bf16
  is the identity there, and a block's entry is the same finite sum over the contracted index as the whole product's
  entry), each blocked rectification the whole rectification, and max (max a 0) 0 = max a 0. So both programs end
  with one function of the argument arrays. No law used needs the inputs finite.

  The three frames are the generated ones; the idealization rewrote nothing, so `preserves` is trivial.
-/
import proofs.«107484_j18202071400723_1_alg».proof.Defs
import proofs.«107484_j18202071400723_1_alg».proof.Proof.Gen.Kernel
import proofs.«107484_j18202071400723_1_alg».proof.Proof.Gen.Kernel.Frame
import proofs.«107484_j18202071400723_1_alg».proof.Proof.Gen.KernelIdeal
import proofs.«107484_j18202071400723_1_alg».proof.Proof.Gen.KernelIdeal.Frame
import proofs.«107484_j18202071400723_1_alg».proof.Proof.Gen.ReferenceIdeal
import proofs.«107484_j18202071400723_1_alg».proof.Proof.Gen.ReferenceIdeal.Run
import proofs.«107484_j18202071400723_1_alg».proof.Proof.Gen.Pre_finite_inputs
import proofs.«107484_j18202071400723_1_alg».proof.Proof.Shared
import proofs.«107484_j18202071400723_1_alg».proof.Proof.KernelValue
import proofs.«107484_j18202071400723_1_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel ends at `kerResult` and the reference at `refResult` of the
    same arrays, and rectifying twice is rectifying once. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4⟩ := hagree c
  rw [h0, h1, h2, h3, h4]
  exact (Cert.Bridge.kerResult_eq_refResult _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
